-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S3072x1024 : Shape := ⟨2, ![3072, 1024]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_

variable [Facts]

def fn {F : FTy → Type} [FloatOps F] (main_arg0 : FVec F S16384x1024 .f32) (main_arg1 : FVec F S3072x1024 .f32) (main_arg2 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  main_v13
-- ==== Kernel.lean ====
abbrev S16384x1024 : Shape := ⟨2, ![16384, 1024]⟩
abbrev S3072x1024 : Shape := ⟨2, ![3072, 1024]⟩
abbrev S3072 : Shape := ⟨1, ![3072]⟩
abbrev S1024x3072 : Shape := ⟨2, ![1024, 3072]⟩
abbrev S1x3072 : Shape := ⟨2, ![1, 3072]⟩
abbrev S16384x3072 : Shape := ⟨2, ![16384, 3072]⟩
abbrev S512x1024 : Shape := ⟨2, ![512, 1024]⟩
abbrev S512x3072 : Shape := ⟨2, ![512, 3072]⟩
abbrev S16384x3x16x64 : Shape := ⟨4, ![16384, 3, 16, 64]⟩

abbrev nBuf : Space → Nat
  | .hbm => 8
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S3072x1024, .f32⟩
  | .hbm, ⟨2, _⟩ => ⟨S3072, .f32⟩
  | .hbm, ⟨3, _⟩ => ⟨S3072x1024, .bf16⟩
  | .hbm, ⟨4, _⟩ => ⟨S1024x3072, .bf16⟩
  | .hbm, ⟨5, _⟩ => ⟨S1x3072, .f32⟩
  | .hbm, ⟨6, _⟩ => ⟨S16384x3072, .f32⟩
  | .hbm, ⟨7, _⟩ => ⟨S16384x3x16x64, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  transposes_S3072x1024_S1024x3072_1_0 : S3072x1024.Transposes [1, 0] S1024x3072
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  shapeCasts_S16384x3072_S16384x3x16x64 : S16384x3072.ShapeCasts S16384x3x16x64
  dot_S512x1024_S1024x3072_S512x3072_1_0_0_1_n_n_wf : DotDims.WF S512x1024 S1024x3072 S512x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S16384x3072.size a
  hwx0_3 : ∀ i : grid0.Coords, EltTy.bits .f32 = 32 ∨ (Rect.block (s := S16384x3072) S512x3072.size (cc0_transform_3 i) (hinb0_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S3072x1024 : Shape := ⟨2, ![3072, 1024]⟩
abbrev S3072 : Shape := ⟨1, ![3072]⟩
abbrev S1024x3072 : Shape := ⟨2, ![1024, 3072]⟩
abbrev S16384x3072 : Shape := ⟨2, ![16384, 3072]⟩
abbrev S1x3072 : Shape := ⟨2, ![1, 3072]⟩
abbrev S16384x3x16x64 : Shape := ⟨4, ![16384, 3, 16, 64]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S3072x1024, .f32⟩
  | .hbm, ⟨2, _⟩ => ⟨S3072, .f32⟩
  | .hbm, ⟨3, _⟩ => ⟨S1024x3072, .f32⟩
  | .hbm, ⟨4, _⟩ => ⟨S16384x3072, .f32⟩
  | .hbm, ⟨5, _⟩ => ⟨S1x3072, .f32⟩
  | .hbm, ⟨6, _⟩ => ⟨S16384x3072, .f32⟩
  | .hbm, ⟨7, _⟩ => ⟨S16384x3072, .f32⟩
  | .hbm, ⟨8, _⟩ => ⟨S16384x3x16x64, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S3072x1024_S1024x3072_1_0 : S3072x1024.Transposes [1, 0] S1024x3072
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  shapeCasts_S16384x3072_S16384x3x16x64 : S16384x3072.ShapeCasts S16384x3x16x64
  dot_S16384x1024_S1024x3072_S16384x3072_1_0_0_1_n_n_wf : DotDims.WF S16384x1024 S1024x3072 S16384x3072 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.LibRowOps.lean ====
/-
  Row operations read at an index, for arrays of any number of rows.

  The arrays here are rank-2, `[n, k]`, and every operation acts on each row by itself, so each lemma reads an
  operation at the index `(p, q)` from its operands at row `p`:
  * a concatenation along the columns reads the piece whose column span holds `q` — for unit-width pieces, piece
    `q` at column `0`; for a `[n, 3]` piece beside a `[n, 2]` piece, the first at `q` when `q < 3`, else the
    second at `q - 3`;
  * a matrix product `[n, K] × [K, N]` into a zero accumulator is `∑ k, l (p, k) * r (k, j)`.
  Nothing depends on `n`: the same statements serve a block of rows and the whole array.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

/-! ## Concatenation along the columns -/

/-- A `[n, 3]` piece beside a `[n, 2]` piece: column `q` comes from the first piece when `q < 3`, else from the
    second at `q - 3`. -/
theorem cat32_apply {n : ℕ} (a : (⟨2, ![n, 3]⟩ : Shape).Idx → α) (b : (⟨2, ![n, 2]⟩ : Shape).Idx → α)
    (h : Shape.Concatenates [(⟨2, ![n, 3]⟩ : Shape), ⟨2, ![n, 2]⟩] ⟨2, ![n, 5]⟩ 1) (p : Fin n) (q : Fin 5) :
    concatenate ⟨2, ![n, 5]⟩ 1 [⟨⟨2, ![n, 3]⟩, a⟩, ⟨⟨2, ![n, 2]⟩, b⟩] h (ix2 p q)
      = if hq : q.val < 3 then a (ix2 p ⟨q.val, hq⟩) else b (ix2 p ⟨q.val - 3, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 3, by omega⟩)
      (fun bb hb => by match bb with | ⟨0, _⟩ => rfl | ⟨1, _⟩ => exact absurd rfl hb)
      (by show (q.val - 3) + 3 = q.val; omega)

/-- Unit-width pieces: column `q` of the concatenation is piece `q`, read at column `0`. The hypothesis `hpre`
    says the pieces before piece `q` span `q` columns; for a literal list it holds by evaluation. -/
theorem catUnits_apply {n K : ℕ} {xs : List ((s : Shape) × (s.Idx → α))}
    {h : Shape.Concatenates (xs.map (·.1)) ⟨2, ![n, K]⟩ 1} (p : Fin n) (q : Fin K)
    (hq : q.val < xs.length) (x : (⟨2, ![n, 1]⟩ : Shape).Idx → α) (hx : xs[q.val] = ⟨⟨2, ![n, 1]⟩, x⟩)
    (hpre : (((xs.take q.val).map (·.1)).map fun s : Shape =>
      if h : s.rank = (⟨2, ![n, K]⟩ : Shape).rank then s.size ((1 : Fin (⟨2, ![n, K]⟩ : Shape).rank).cast h.symm) else 0).sum = q.val) :
    concatenate ⟨2, ![n, K]⟩ 1 xs h (ix2 p q) = x (ix2 p 0) :=
  concatenate_apply_piece 1 xs h (ix2 p q) q.val hq _ x hx rfl q.val hpre (ix2 p 0)
    (fun b hb => by match b with | ⟨0, _⟩ => rfl | ⟨1, _⟩ => exact absurd rfl hb)
    (by show q.val + 0 = q.val; omega)

/-- Two unit-width pieces. -/
theorem cat2_apply {n : ℕ} (x0 x1 : (⟨2, ![n, 1]⟩ : Shape).Idx → α)
    (h : Shape.Concatenates [(⟨2, ![n, 1]⟩ : Shape), ⟨2, ![n, 1]⟩] ⟨2, ![n, 2]⟩ 1) (p : Fin n) (q : Fin 2) :
    concatenate ⟨2, ![n, 2]⟩ 1 [⟨⟨2, ![n, 1]⟩, x0⟩, ⟨⟨2, ![n, 1]⟩, x1⟩] h (ix2 p q)
      = ![x0 (ix2 p 0), x1 (ix2 p 0)] q := by
  match q with
  | ⟨0, _⟩ => exact catUnits_apply p ⟨0, by omega⟩ (by simp) x0 rfl rfl
  | ⟨1, _⟩ => exact catUnits_apply p ⟨1, by omega⟩ (by simp) x1 rfl rfl

/-- Five unit-width pieces. -/
theorem cat5_apply {n : ℕ} (x0 x1 x2 x3 x4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (p : Fin n) (q : Fin 5) :
    concatenate ⟨2, ![n, 5]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩] h (ix2 p q)
      = ![x0 (ix2 p 0), x1 (ix2 p 0), x2 (ix2 p 0), x3 (ix2 p 0), x4 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl

/-- Six unit-width pieces. -/
theorem cat6_apply {n : ℕ} (x0 x1 x2 x3 x4 x5 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩] ⟨2, ![n, 6]⟩ 1)
    (p : Fin n) (q : Fin 6) :
    concatenate ⟨2, ![n, 6]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩] h (ix2 p q)
      = ![x0 (ix2 p 0), x1 (ix2 p 0), x2 (ix2 p 0), x3 (ix2 p 0), x4 (ix2 p 0), x5 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl

/-- Seven unit-width pieces. -/
theorem cat7_apply {n : ℕ} (x0 x1 x2 x3 x4 x5 x6 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩, ⟨2, ![n, 1]⟩, ⟨2, ![n, 1]⟩] ⟨2, ![n, 7]⟩ 1)
    (p : Fin n) (q : Fin 7) :
    concatenate ⟨2, ![n, 7]⟩ 1 [⟨⟨2, ![n, 1]⟩, x0⟩, ⟨⟨2, ![n, 1]⟩, x1⟩, ⟨⟨2, ![n, 1]⟩, x2⟩, ⟨⟨2, ![n, 1]⟩, x3⟩, ⟨⟨2, ![n, 1]⟩, x4⟩, ⟨⟨2, ![n, 1]⟩, x5⟩, ⟨⟨2, ![n, 1]⟩, x6⟩] h (ix2 p q)
      = ![x0 (ix2 p 0), x1 (ix2 p 0), x2 (ix2 p 0), x3 (ix2 p 0), x4 (ix2 p 0), x5 (ix2 p 0), x6 (ix2 p 0)] q := by
  match q with
  | ⟨0, _⟩ => exact catUnits_apply p ⟨0, by omega⟩ (by simp) x0 rfl rfl
  | ⟨1, _⟩ => exact catUnits_apply p ⟨1, by omega⟩ (by simp) x1 rfl rfl
  | ⟨2, _⟩ => exact catUnits_apply p ⟨2, by omega⟩ (by simp) x2 rfl rfl
  | ⟨3, _⟩ => exact catUnits_apply p ⟨3, by omega⟩ (by simp) x3 rfl rfl
  | ⟨4, _⟩ => exact catUnits_apply p ⟨4, by omega⟩ (by simp) x4 rfl rfl
  | ⟨5, _⟩ => exact catUnits_apply p ⟨5, by omega⟩ (by simp) x5 rfl rfl
  | ⟨6, _⟩ => exact catUnits_apply p ⟨6, by omega⟩ (by simp) x6 rfl rfl

/-! ## A matrix product, `[M, K] × [K, N]`, as a sum over `Fin K` -/

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction of a plain product, at `(p, j)`: the sum over `k : Fin K` of `l (p, k) * r (k, j)`. -/
theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into the zero accumulator, for any dimension record that is the plain one. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

/-- The host's product of the same operands is the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

/-! ## Slices, a row broadcast, a bias row -/

/-- One column cut out of `[n, k]`: at `(p, 0)` it reads column `o`. -/
theorem col_apply {n k : ℕ} (o : ℕ) (X : (⟨2, ![n, k]⟩ : Shape).Idx → α)
    (h : (⟨2, ![n, k]⟩ : Shape).Slices ![0, o] ⟨2, ![n, 1]⟩) (p : Fin n) (c : Fin k) (hc : c.val = o) :
    extractStridedSlice ⟨2, ![n, 1]⟩ ![0, o] X h (ix2 p 0) = X (ix2 p c) :=
  slice2_axis1_apply o X h p 0 c (by rw [hc]; rfl)

/-- A rank-1 array `[k]` cast to `[1, k]` and broadcast down `n` rows reads, at `(p, q)`, entry `q`. -/
theorem rowBcast_apply {n k : ℕ} (v : (⟨1, ![k]⟩ : Shape).Idx → α) (hc : (⟨1, ![k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix1 q) :=
  (broadcastTo_1b_ab_apply _ hb p q).trans (shapeCast_a_1a_apply v hc 0 q)

/-- One affine layer as the kernel spells it — a product into the zero accumulator plus a bias row broadcast down the
    rows — at `(p, j)`: `(∑ k, x k * W (k, j)) + b j`, where `x` is row `p` of the left operand. -/
theorem layer_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨1, ![N]⟩ .f32)
    (hc : (⟨1, ![N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix1 j) := by
  show matmul d none A W (constant ⟨2, ![n, N]⟩ .f32 0x00000000#32) (ix2 p j) + broadcastTo ⟨2, ![n, N]⟩ (shapeCast ⟨2, ![1, N]⟩ b hc) hb (ix2 p j) = _
  rw [matmul_plain_apply d hd, rowBcast_apply]
  exact congrArg (· + b (ix1 j)) (Finset.sum_congr rfl fun k _ => by rw [hx k])

/-- The product alone, at `(p, j)`, from row `p` of the left operand. -/
theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Projection.lean ====
/-
  The fused projection `y = q · Wᵀ + b` read at an index, over the extended reals.

  `q` is `[16384, 1024]`, `W` is `[3072, 1024]` (one row per output feature), `b` is `[3072]`, and entry `(p, j)` of
  the result is `(∑ k, q (p, k) * W (j, k)) + b j`: row `p` of `q` against row `j` of `W`, plus the bias at `j`.
  Two arrangements of the same sum meet here. One contracts `q` with the TRANSPOSED weight `Wt = Wᵀ`, `[1024, 3072]`,
  and adds the bias held as a one-row matrix `[1, 3072]` broadcast down the rows; the other is the same with the bias
  broadcast from the rank-1 array. Both are `proj`. Nothing needs finiteness: a change of float format is the identity
  on extended reals, the two products are the same sum over `k` term by term, and the bias is added last on both sides.
  The result is finally viewed as `[16384, 3, 16, 64]` (three projections, sixteen heads of width 64) by a reshape,
  the same one on both sides.
-/
import Idealize.ShloMosaic.Lib.Pipeline.Value
import Idealize.ShloMosaic.Lib.ValueIdx
import Idealize.ShloMosaic.Lib.ValueLayout
import Idealize.ShloMosaic.PureOps.Ideal.Laws
import proofs.«413859_j48730698940882_3_alg».proof.Proof.LibRowOps

noncomputable section

namespace Cert.Projection

open Idealize.ShloMosaic Idealize.ShloMosaic.ValueIdx
open scoped BigOperators

/-- The activations, `[16384, 1024]`. -/
abbrev SQ : Shape := ⟨2, ![16384, 1024]⟩
/-- The weight, one row per output feature, `[3072, 1024]`. -/
abbrev SW : Shape := ⟨2, ![3072, 1024]⟩
/-- The weight transposed, `[1024, 3072]`. -/
abbrev SWt : Shape := ⟨2, ![1024, 3072]⟩
/-- The bias, `[3072]`. -/
abbrev SB : Shape := ⟨1, ![3072]⟩
/-- The bias as a one-row matrix, `[1, 3072]`. -/
abbrev SB2 : Shape := ⟨2, ![1, 3072]⟩
/-- The projection, `[16384, 3072]`. -/
abbrev SY : Shape := ⟨2, ![16384, 3072]⟩
/-- A block of 512 rows of the activations and of the projection. -/
abbrev SQb : Shape := ⟨2, ![512, 1024]⟩
abbrev SYb : Shape := ⟨2, ![512, 3072]⟩

/-- Entry `(p, j)` of the projection: row `p` of `q` against row `j` of `W`, plus the bias at `j`. -/
def projAt (q : SQ.Idx → EReal) (W : SW.Idx → EReal) (b : SB.Idx → EReal) (p : Fin 16384) (j : Fin 3072) : EReal :=
  (∑ k : Fin 1024, q (ix2 p k) * W (ix2 j k)) + b (ix1 j)

/-- The projection `q · Wᵀ + b`, as one function of the three arrays. -/
def proj (q : SQ.Idx → EReal) (W : SW.Idx → EReal) (b : SB.Idx → EReal) : SY.Idx → EReal :=
  fun i => projAt q W b (i 0) (i 1)

/-- The same entry from the transposed weight `Wt (k, j)` and the bias row `b2 (0, j)`. -/
def projTAt (q : SQ.Idx → EReal) (Wt : SWt.Idx → EReal) (b2 : SB2.Idx → EReal) (p : Fin 16384) (j : Fin 3072) : EReal :=
  (∑ k : Fin 1024, q (ix2 p k) * Wt (ix2 k j)) + b2 (ix2 (0 : Fin 1) j)

/-- The projection from the transposed weight and the bias row. -/
def projT (q : SQ.Idx → EReal) (Wt : SWt.Idx → EReal) (b2 : SB2.Idx → EReal) : SY.Idx → EReal :=
  fun i => projTAt q Wt b2 (i 0) (i 1)

/-- With `Wt` the transpose of `W` narrowed to another float format (the identity on extended reals) and `b2` the bias
    reshaped to one row, the two arrangements are one function. -/
theorem projT_eq_proj (hlt : FTy.bits .bf16 < FTy.bits .f32) (hT : SW.Transposes [1, 0] SWt) (hc : SB.ShapeCasts SB2)
    (q : FVec Ideal SQ .f32) (W : FVec Ideal SW .f32) (b : FVec Ideal SB .f32) :
    projT q (transpose SWt [1, 0] (truncf .bf16 W hlt) hT) (shapeCast SB2 b hc) = proj q W b := by
  funext i
  obtain ⟨p, j, rfl⟩ : ∃ (p : Fin 16384) (j : Fin 3072), i = ix2 p j := ⟨i 0, i 1, eq_ix2 i⟩
  show (∑ k : Fin 1024, q (ix2 p k) * transpose SWt [1, 0] (truncf .bf16 W hlt) hT (ix2 k j)) + shapeCast SB2 b hc (ix2 (0 : Fin 1) j)
    = (∑ k : Fin 1024, q (ix2 p k) * W (ix2 j k)) + b (ix1 j)
  rw [shapeCast_a_1a_apply]
  exact congrArg (· + b (ix1 j)) (Finset.sum_congr rfl fun k _ => by rw [transpose_ix2_apply]; rfl)

/-- The host's spelling — a `dot_general` of `q` with the transposed weight, plus the bias broadcast first to one row and
    then down the rows — is the projection. -/
theorem host_eq_proj (d : DotDims SQ SWt SY) (hd : d = DotDims.plain 16384 1024 3072) (hT : SW.Transposes [1, 0] SWt)
    (h1 : SB.BroadcastsInDim SB2 (![1] : Fin 1 → Fin SB2.rank)) (h2 : SB2.BroadcastsInDim SY (![0, 1] : Fin 2 → Fin SY.rank))
    (q : FVec Ideal SQ .f32) (W : FVec Ideal SW .f32) (b : FVec Ideal SB .f32) :
    addf (Host.dotGeneral d none q (transpose SWt [1, 0] W hT)) (broadcastInDim SY ![0, 1] h2 (broadcastInDim SB2 ![1] h1 b))
      = proj q W b := by
  funext i
  obtain ⟨p, j, rfl⟩ : ∃ (p : Fin 16384) (j : Fin 3072), i = ix2 p j := ⟨i 0, i 1, eq_ix2 i⟩
  show Host.dotGeneral d none q (transpose SWt [1, 0] W hT) (ix2 p j)
      + broadcastInDim SY ![0, 1] h2 (broadcastInDim SB2 ![1] h1 b) (ix2 p j)
    = (∑ k : Fin 1024, q (ix2 p k) * W (ix2 j k)) + b (ix1 j)
  rw [LibRowOps.dotGeneral_plain_apply d hd,
    broadcastInDim_apply ![0, 1] h2 _ (ix2 p j) (ix2 (0 : Fin 1) j) (fun a => by
      match a with
      | ⟨0, _⟩ => rfl
      | ⟨1, _⟩ => rfl),
    broadcastInDim_apply ![1] h1 b (ix2 (0 : Fin 1) j) (ix1 j) (fun a => by
      match a with
      | ⟨0, _⟩ => rfl)]
  exact congrArg (· + b (ix1 j)) (Finset.sum_congr rfl fun k _ => by rw [transpose_ix2_apply])

/-- The kernel body's arithmetic on one block of 512 rows — the block narrowed to another float format, multiplied into
    a zero accumulator with the whole transposed weight, plus the bias row broadcast down the block — at `(p, j)`. -/
theorem body_apply (d : DotDims SQb SWt SYb) (hd : d = DotDims.plain 512 1024 3072) (hlt : FTy.bits .bf16 < FTy.bits .f32)
    (hc1 : SWt.ShapeCasts SWt) (hc2 : SB2.ShapeCasts SB2) (hb : SB2.Broadcasts SYb)
    (x0 : FVec Ideal SQb .f32) (x1 : FVec Ideal SWt .bf16) (x2 : FVec Ideal SB2 .f32) (p : Fin 512) (j : Fin 3072) :
    addf (matmul d none (truncf .bf16 x0 hlt) (shapeCast SWt x1 hc1) (constant SYb .f32 0x00000000#32))
        (broadcastTo SYb (shapeCast SB2 x2 hc2) hb) (ix2 p j)
      = (∑ k : Fin 1024, x0 (ix2 p k) * x1 (ix2 k j)) + x2 (ix2 (0 : Fin 1) j) := by
  show matmul d none (truncf .bf16 x0 hlt) (shapeCast SWt x1 hc1) (constant SYb .f32 0x00000000#32) (ix2 p j)
      + broadcastTo SYb (shapeCast SB2 x2 hc2) hb (ix2 p j) = _
  rw [LibRowOps.matmul_plain_apply d hd, broadcastTo_1b_ab_apply, shapeCast_self, shapeCast_self]
  rfl

end Cert.Projection

end
-- ==== Proof.KernelValue.lean ====
/-
  What the kernel leaves in its result array, read at the extended reals.

  The grid has 32 points; point `t` works on rows `512 t … 512 t + 511`. Its block of the activations is those rows of
  `q`; the transposed weight and the bias row are fetched whole (their block index is always zero). The body multiplies
  the block into a zero accumulator with the transposed weight and adds the bias row, so entry `(p, j)` of what point `t`
  writes back is entry `(512 t + p, j)` of the projection. The 32 row blocks tile the `[16384, 3072]` array, so after the
  run it holds the projection; the lines before the region make the transposed weight and the bias row from the
  arguments, and the line after it reshapes the array to `[16384, 3, 16, 64]`.
-/
import proofs.«413859_j48730698940882_3_alg».proof.Proof.Gen.KernelIdeal.Frame
import proofs.«413859_j48730698940882_3_alg».proof.Proof.Projection
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Proj

open Cert.KernelIdeal Cert.KernelIdeal.Gen Cert.Projection

variable (m : (ℓ : Loc nD τ sig) → Buf (Elt Ideal) ℓ) (ρ : Dev nD → PrngReg)

theorem hz : (![0, 0] : Fin 2 → Nat) = fun _ => 0 := funext fun a => by fin_cases a <;> rfl

/-! ## The body's arithmetic at an index -/

/-- The stored value at `(p, j)`: row `p` of the activation block against column `j` of the transposed weight, plus
    the bias row at `j`. -/
theorem pay_apply (x0 : Vec Ideal S512x1024 .f32) (x1 : Vec Ideal S1024x3072 .bf16) (x2 : Vec Ideal S1x3072 .f32)
    (p : Fin 512) (j : Fin 3072) :
    k0_pay1 x0 x1 x2 (ix2 p j) = (∑ k : Fin 1024, x0 (ix2 p k) * x1 (ix2 k j)) + x2 (ix2 (0 : Fin 1) j) := by
  unfold k0_pay1
  exact body_apply _ rfl _ _ _ _ x0 x1 x2 p j

/-- If the three loaded blocks are the arrays `A0`, `A1`, `A2` read at row `P` (for the activations) and whole (for the
    transposed weight and the bias row), the stored value at `(p, j)` is the projection's entry `(P, j)`. -/
theorem point_eq (A0 : SQ.Idx → EReal) (A1 : SWt.Idx → EReal) (A2 : SB2.Idx → EReal)
    (x0 : Vec Ideal S512x1024 .f32) (x1 : Vec Ideal S1024x3072 .bf16) (x2 : Vec Ideal S1x3072 .f32)
    (p : Fin 512) (j : Fin 3072) (P : Fin 16384)
    (h0 : ∀ k : Fin 1024, x0 (ix2 p k) = A0 (ix2 P k))
    (h1 : ∀ k : Fin 1024, x1 (ix2 k j) = A1 (ix2 k j))
    (h2 : x2 (ix2 (0 : Fin 1) j) = A2 (ix2 (0 : Fin 1) j)) :
    k0_pay1 x0 x1 x2 (ix2 p j) = projTAt A0 A1 A2 P j := by
  rw [pay_apply, h2]
  unfold projTAt
  exact congrArg (· + A2 (ix2 (0 : Fin 1) j)) (Finset.sum_congr rfl fun k _ => by rw [h0 k, h1 k])

/-! ## The windows' blocks -/

/-- The printed index maps over the grid: the activations and the result move one block of rows per point, the
    transposed weight and the bias row stay at block zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of the activation block at point `t` is row `512 t + p` of the activations. -/
theorem qblk_apply (c : Dev nD) (t : Fin cfg0.N) (p : Fin 512) (k : Fin 1024) (P : Fin 16384) (hP : P.val = 512 * t.val + p.val) :
    (iblk m c 0 t : Vec Ideal S512x1024 .f32) (ix2 p k) = (V m c main_arg0 : S16384x1024.Idx → EReal) (ix2 P k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t 0 * 512 + 1 * p.val = P.val; rw [e0, hP]; omega
  | ⟨1, _⟩ => show win0_0.index t 1 * 1024 + 1 * k.val = k.val; rw [e1]; omega

/-- The transposed weight's block at any point is the whole array. -/
theorem wblk_apply (c : Dev nD) (t : Fin cfg0.N) (k : Fin 1024) (j : Fin 3072) :
    (iblk m c 1 t : Vec Ideal S1024x3072 .bf16) (ix2 k j) = (V m c main_v1 : S1024x3072.Idx → EReal) (ix2 k j) := by
  obtain ⟨-, -, e0, e1, -⟩ := idx_facts t
  unfold iblk
  rw [View.read_apply]
  show V m c main_v1 _ = V m c main_v1 _
  congr 1
  funext a
  apply Fin.ext
  match a with
  | ⟨0, _⟩ => show win0_1.index t 0 * 1024 + 1 * k.val = k.val; rw [e0]; omega
  | ⟨1, _⟩ => show win0_1.index t 1 * 3072 + 1 * j.val = j.val; rw [e1]; omega

/-- The bias row's block at any point is the whole row. -/
theorem bblk_apply (c : Dev nD) (t : Fin cfg0.N) (j : Fin 3072) :
    (iblk m c 2 t : Vec Ideal S1x3072 .f32) (ix2 (0 : Fin 1) j) = (V m c main_v2 : S1x3072.Idx → EReal) (ix2 (0 : Fin 1) j) := by
  obtain ⟨-, -, -, -, e0, e1, -⟩ := idx_facts t
  unfold iblk
  rw [View.read_apply]
  show V m c main_v2 _ = V m c main_v2 _
  congr 1
  funext a
  apply Fin.ext
  match a with
  | ⟨0, _⟩ => show win0_2.index t 0 * 1 + 1 * 0 = 0; rw [e0]
  | ⟨1, _⟩ => show win0_2.index t 1 * 3072 + 1 * j.val = j.val; rw [e1]; omega

/-! ## What a point writes back, and the array after the run -/

/-- Point `t` writes back its block of the projection of the arrays as the region finds them. -/
theorem flushed_eq (c : Dev nD) (t : Fin cfg0.N) :
    (dats m 0 c).flushed 3 t
      = ((cfg0.win 3).blk t).view.read (Elt Ideal) (projT (V m c main_arg0) (V m c main_v1) (V m c main_v2)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S1024x3072) hz, View.ld_unit_zero (S := S1x3072) hz]
  obtain ⟨-, -, -, -, -, -, e0, e1⟩ := idx_facts t
  have ht : t.val < 32 := lt_of_lt_of_eq t.isLt N_0
  funext y
  obtain ⟨p, j, rfl⟩ : ∃ (p : Fin 512) (j : Fin 3072), y = ix2 p j := ⟨y 0, y 1, eq_ix2 y⟩
  have hP : 512 * t.val + p.val < 16384 := by have := p.isLt; omega
  refine (point_eq (V m c main_arg0) (V m c main_v1) (V m c main_v2) (iblk m c 0 t) (iblk m c 1 t) (iblk m c 2 t) p j
    ⟨512 * t.val + p.val, hP⟩ (fun k => qblk_apply m c t p k _ rfl) (fun k => wblk_apply m c t k j) (bblk_apply m c t j)).trans ?_
  have E0 : (((cfg0.win 3).blk t).view.emb (ix2 p j)) 0 = (⟨512 * t.val + p.val, hP⟩ : Fin 16384) :=
    Fin.ext (by show win0_3.index t 0 * 512 + 1 * p.val = 512 * t.val + p.val; rw [e0]; omega)
  have E1 : (((cfg0.win 3).blk t).view.emb (ix2 p j)) 1 = j :=
    Fin.ext (by show win0_3.index t 1 * 3072 + 1 * j.val = j.val; rw [e1]; omega)
  show projTAt _ _ _ _ _ = projTAt (V m c main_arg0) (V m c main_v1) (V m c main_v2)
    ((((cfg0.win 3).blk t).view.emb (ix2 p j)) 0) ((((cfg0.win 3).blk t).view.emb (ix2 p j)) 1)
  rw [E0, E1]

/-- An index of the result array is in point `t`'s block iff each coordinate is in the block's range on its axis. -/
theorem mem_blk (t : Fin cfg0.N) (i : S16384x3072.Idx) :
    i ∈ ((cfg0.win 3).blk t).view.set
      ↔ ∀ a : Fin 2, win0_3.index t a * S512x3072.size a ≤ (i a).val ∧ (i a).val < win0_3.index t a * S512x3072.size a + S512x3072.size a := by
  show i ∈ ((View.whole main_v3).slice (win0_3.rect t)).set ↔ _
  rw [View.set_slice_whole, Rect.mem_set_unit]
  exact Iff.rfl

/-- The 32 row blocks tile the array: row `r` lies in the block of point `r / 512`. -/
theorem cover (i : S16384x3072.Idx) :
    ∃ t : Fin cfg0.N, (cfg0.win 3).flush t = true ∧ i ∈ ((cfg0.win 3).blk t).view.set := by
  have hi0 : (i 0).val < 16384 := (i 0).isLt
  have hi1 : (i 1).val < 3072 := (i 1).isLt
  have hN : cfg0.N = 32 := N_0
  have hlt : (i 0).val / 512 < cfg0.N := by rw [hN]; omega
  obtain ⟨-, -, -, -, -, -, e0, e1⟩ := idx_facts ⟨(i 0).val / 512, hlt⟩
  refine ⟨⟨(i 0).val / 512, hlt⟩, flush0_3 _, ?_⟩
  rw [mem_blk]
  intro a
  match a with
  | ⟨0, _⟩ =>
    show win0_3.index ⟨(i 0).val / 512, hlt⟩ 0 * 512 ≤ (i 0).val ∧ (i 0).val < win0_3.index ⟨(i 0).val / 512, hlt⟩ 0 * 512 + 512
    rw [e0]; show (i 0).val / 512 * 512 ≤ (i 0).val ∧ (i 0).val < (i 0).val / 512 * 512 + 512; omega
  | ⟨1, _⟩ =>
    show win0_3.index ⟨(i 0).val / 512, hlt⟩ 1 * 3072 ≤ (i 1).val ∧ (i 1).val < win0_3.index ⟨(i 0).val / 512, hlt⟩ 1 * 3072 + 3072
    rw [e1]; omega

/-- After the run the result array holds the projection of the arrays as the region finds them. -/
theorem final (c : Dev nD) :
    (dats m 0 c).arrAt 3 cfg0.N = projT (V m c main_arg0) (V m c main_v1) (V m c main_v2) :=
  (dats m 0 c).arrAt_eq_of_cover 3 _ (fun t _ => flushed_eq m c t) cover

end Cert.KernelIdeal.Proj

end
-- ==== Proof.KernelRun.lean ====
/-
  The kernel's run, read: its result is the projection `q · Wᵀ + b` viewed as `[16384, 3, 16, 64]`.

  Before the region the program narrows the weight to another float format (the identity on extended reals),
  transposes it, and reshapes the bias to one row; so the arrays the region finds are functions of the arguments, and
  the projection over them is the projection `proj` of the arguments themselves. After the region one reshape views the
  `[16384, 3072]` array as `[16384, 3, 16, 64]`.
-/
import proofs.«413859_j48730698940882_3_alg».proof.Proof.KernelValue

noncomputable section

open Idealize.ShloMosaic Idealize.ShloMosaic.TcCoe Idealize.SL.Sem Idealize.ShloMosaic.ValueIdx
open Idealize.ShloMosaic.Pipeline (Dat)

namespace Cert.KernelIdeal.Proj

open Cert.KernelIdeal Cert.KernelIdeal.Gen Cert.Projection

variable (m : (ℓ : Loc nD τ sig) → Buf (Elt Ideal) ℓ) (ρ : Dev nD → PrngReg)

/-! ## The arrays the region finds, from the arguments -/

/-- The transposed weight the region finds is the weight, narrowed and transposed. -/
theorem V_v1 (c : Dev nD) : (V m c main_v1 : S1024x3072.Idx → EReal)
    = transpose S1024x3072 [1, 0] (truncf (F := Ideal) .bf16 (m ((c : Thread nD τ).loc main_arg1)) bitsLt_bf16_f32)
        transposes_S3072x1024_S1024x3072_1_0 := by
  show StableHlo.after hostOps0 (fun b => m (c, b)) (Proc.devRef .tc main_v1) = _
  after_results <;> rfl

/-- The bias row the region finds is the bias reshaped to one row. -/
theorem V_v2 (c : Dev nD) : (V m c main_v2 : S1x3072.Idx → EReal)
    = shapeCast S1x3072 (m ((c : Thread nD τ).loc main_arg2)) shapeCasts_S3072_S1x3072 := by
  show StableHlo.after hostOps0 (fun b => m (c, b)) (Proc.devRef .tc main_v2) = _
  after_results <;> rfl

/-- After the run the result array holds the projection of the ARGUMENTS. -/
theorem arr_eq (c : Dev nD) :
    (dats m 0 c).arrAt 3 cfg0.N
      = proj (m ((c : Thread nD τ).loc main_arg0)) (m ((c : Thread nD τ).loc main_arg1)) (m ((c : Thread nD τ).loc main_arg2)) := by
  rw [final m c, V_main_arg0 m c, V_v1 m c, V_v2 m c]
  exact projT_eq_proj _ _ _ _ _ _

/-! ## The line after the region, and the run -/

/-- The program's result: the projection viewed as three projections of sixteen heads of width 64. -/
abbrev result (c : Dev nD) : Buf (Elt Ideal) ((c : Thread nD τ).loc main_v4) :=
  shapeCast S16384x3x16x64
    (proj (m ((c : Thread nD τ).loc main_arg0)) (m ((c : Thread nD τ).loc main_arg1)) (m ((c : Thread nD τ).loc main_arg2)))
    shapeCasts_S16384x3072_S16384x3x16x64

/-- What the line after the region leaves in the result buffer. -/
theorem tail_eq (c : Dev nD) :
    Pipeline.afterTail₀ cfgs (dats m) 0 (V0 m) [hostOps1] c main_v4 = result m c := by
  unfold Pipeline.afterTail₀
  show StableHlo.after hostOps1 _ (Proc.devRef .tc main_v4) = _
  after_results
  exact congrArg (fun y => shapeCast S16384x3x16x64 y shapeCasts_S16384x3072_S16384x3x16x64)
    ((Pipeline.withArrays_arr spec0 launch0.win.arr_inj c _ _ 3).trans (arr_eq m c))

/-- The run, read: every weakly fair execution ends with the result buffer at the reshaped projection of the arguments
    and the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Proj

end
-- ==== Proof.lean ====
/-
  The fused query/key/value projection: `y = q · Wᵀ + b`, viewed as `[16384, 3, 16, 64]`.

  The kernel walks the 16384 rows of `q` in 32 blocks of 512. For each block it narrows the rows to a shorter float
  format, multiplies them into a zero accumulator with the weight — narrowed and transposed once, before the launch —
  and adds the bias held as one row. The reference transposes the weight, takes one whole matrix product, and adds the
  bias broadcast down the rows. Over the extended reals a change of float format is the identity, and a product into a
  zero accumulator and the host's product are the same sum over the contracted axis; so entry `(p, j)` is
  `(∑ k, q (p, k) * W (j, k)) + b j` on both sides, term by term, with no appeal to finiteness. Both programs end with
  the same reshape.

  `Projection.lean` states that function and the two arrangements of it; `KernelValue.lean` reads what each grid point
  writes back and tiles the result array with the 32 row blocks; `KernelRun.lean` reads the lines around the region and
  the kernel's run. Here: the reference's term is the same function, and the five claims.
-/
import proofs.«413859_j48730698940882_3_alg».proof.Defs
import proofs.«413859_j48730698940882_3_alg».proof.Proof.Gen.Kernel
import proofs.«413859_j48730698940882_3_alg».proof.Proof.Gen.Kernel.Skeleton
import proofs.«413859_j48730698940882_3_alg».proof.Proof.Gen.Kernel.Launch
import proofs.«413859_j48730698940882_3_alg».proof.Proof.Gen.Kernel.Points
import proofs.«413859_j48730698940882_3_alg».proof.Proof.Gen.Kernel.Frame
import proofs.«413859_j48730698940882_3_alg».proof.Proof.Gen.KernelIdeal
import proofs.«413859_j48730698940882_3_alg».proof.Proof.Gen.KernelIdeal.Skeleton
import proofs.«413859_j48730698940882_3_alg».proof.Proof.Gen.KernelIdeal.Launch
import proofs.«413859_j48730698940882_3_alg».proof.Proof.Gen.KernelIdeal.Points
import proofs.«413859_j48730698940882_3_alg».proof.Proof.Gen.KernelIdeal.Frame
import proofs.«413859_j48730698940882_3_alg».proof.Proof.Gen.ReferenceIdeal
import proofs.«413859_j48730698940882_3_alg».proof.Proof.Gen.ReferenceIdeal.Run
import proofs.«413859_j48730698940882_3_alg».proof.Proof.Gen.Pre_finite_inputs
import proofs.«413859_j48730698940882_3_alg».proof.Proof.Projection
import proofs.«413859_j48730698940882_3_alg».proof.Proof.KernelRun
import Idealize.ShloMosaic.Adequacy
import Idealize.ShloMosaic.Init

noncomputable section

open Idealize.ShloMosaic Idealize.ShloMosaic.TcCoe Idealize.SL.Sem

/-! ## The reference's term is the projection -/

namespace Cert.ReferenceIdeal.RefProj

open Cert.ReferenceIdeal Cert.Projection

/-- The reference's `[16384, 3072]` value — the product of `q` with the transposed weight, plus the bias broadcast to one
    row and then down the rows — is the projection `proj`. -/
theorem value_eq (q : FVec Ideal S16384x1024 .f32) (W : FVec Ideal S3072x1024 .f32) (b : FVec Ideal S3072 .f32) :
    addf (Host.dotGeneral dot_S16384x1024_S1024x3072_S16384x3072_1_0_0_1_n_n none q
        (transpose S1024x3072 [1, 0] W Cert.ReferenceIdeal.Gen.transposes_S3072x1024_S1024x3072_1_0))
      (broadcastInDim S16384x3072 ![0, 1] Cert.ReferenceIdeal.Gen.bcast_S1x3072_S16384x3072_0_1
        (broadcastInDim S1x3072 ![1] Cert.ReferenceIdeal.Gen.bcast_S3072_S1x3072_1 b))
      = proj q W b :=
  host_eq_proj _ rfl _ _ _ q W b

end Cert.ReferenceIdeal.RefProj

/-! ## The claims -/

namespace Cert.Proof

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `q`, `W` and `b`, both programs end with the reshaped projection `q · Wᵀ + b`. -/
theorem algebraic : Cert.algebraic_KernelIdeal_ReferenceIdeal := by
  intro m ρ m' ρ' _ hagree
  refine ⟨fun c => Cert.KernelIdeal.Proj.result m c, Cert.KernelIdeal.Proj.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact congrArg (fun y => shapeCast Cert.ReferenceIdeal.S16384x3x16x64 y Cert.ReferenceIdeal.Gen.shapeCasts_S16384x3072_S16384x3x16x64)
    (Cert.ReferenceIdeal.RefProj.value_eq _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
